-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x4096 : Shape := ⟨2, ![1024, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S2048x1024 .f32) (main_arg1 : FVec F S1024x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S2048x1024 : Shape := ⟨2, ![2048, 1024]⟩
abbrev S1024x4096 : Shape := ⟨2, ![1024, 4096]⟩
abbrev S2048x4096 : Shape := ⟨2, ![2048, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S512x1024_S512 : S512x1024.Reduces [1] S512
  shapeCasts_S512_S512x1 : S512.ShapeCasts S512x1
  reduces_S1024x1024_S1024 : S1024x1024.Reduces [0] S1024
  shapeCasts_S1024_S1x1024 : S1024.ShapeCasts S1x1024
  broadcasts_S512x1_S512x1024 : S512x1.Broadcasts S512x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x4096.size a
  hwx0_2 : ∀ i : grid0.Coords, EltTy.bits .f32 = 32 ∨ (Rect.block (s := S2048x4096) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S4096 : Shape := ⟨1, ![4096]⟩
abbrev S1x4096 : Shape := ⟨2, ![1, 4096]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S1024x4096, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  reducesTo_S1024x4096_S4096_d0 : S1024x4096.ReducesTo [0] S4096
  bcast_S4096_S1x4096_1 : S4096.BroadcastsInDim S1x4096 (![1] : Fin 1 → Fin S1x4096.rank)
  bcast_S_S2048x4096 : S_.BroadcastsInDim S2048x4096 (![] : Fin 0 → Fin S2048x4096.rank)
  bcast_S2048x1_S2048x4096_0_1 : S2048x1.BroadcastsInDim S2048x4096 (![0, 1] : Fin 2 → Fin S2048x4096.rank)
  bcast_S1x4096_S2048x4096_0_1 : S1x4096.BroadcastsInDim S2048x4096 (![0, 1] : Fin 2 → Fin S2048x4096.rank)
  dot_S2048x1024_S1024x4096_S2048x4096_1_0_0_1_n_n_wf : DotDims.WF S2048x1024 S1024x4096 S2048x4096 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf

class Facts : Prop extends Facts₀ where

variable [Facts]
-- ==== Proof.SqDistSpec.lean ====
/-
  The function both programs compute, as one formula per entry.

  The inputs are a matrix x of 2048 rows of length 1024 and a matrix W of 4096 columns of length 1024. Entry (r, c) of
  the result is

      h · ( ( Σ_k x(r,k)·x(r,k)  −  t · Σ_k x(r,k)·W(k,c) )  +  Σ_k W(k,c)·W(k,c) )

  on the extended reals, where t and h are the values of the two float words both programs write for 2 and −1/2. The
  three sums run over the shared axis of length 1024: the squared length of row r of x, the inner product of that row
  with column c of W, and the squared length of that column. Nothing is rearranged between the two programs: each
  takes the same three sums and combines them in the same order, so no law of the extended reals beyond 0 + s = s is
  needed, and the words for 2 and −1/2 are never evaluated.
-/
import Idealize.ShloMosaic.PureOps.Ideal.Laws
import Idealize.ShloMosaic.Lib.ValueIdx

noncomputable section

open scoped BigOperators

namespace Cert.SqDist

open Idealize.ShloMosaic Idealize.ShloMosaic.ValueIdx

/-- How the three sums are combined: h · ((xx − t · xw) + ww), with t and h the words for 2 and −1/2. -/
def combine (xx xw ww : EReal) : EReal :=
  Ideal.ofBits .f32 0xBF000000#32 * ((xx - Ideal.ofBits .f32 0x40000000#32 * xw) + ww)

/-- Entry (r, c), for any numbers of rows, columns and any length of the shared axis: the three sums over the
    shared axis, combined. The blocks a grid point works on and the whole arrays are both instances. -/
def entry {B D O : Nat} (x : (⟨2, ![B, D]⟩ : Shape).Idx → EReal) (w : (⟨2, ![D, O]⟩ : Shape).Idx → EReal)
    (r : Fin B) (c : Fin O) : EReal :=
  combine (∑ k : Fin D, x (ix2 r k) * x (ix2 r k)) (∑ k : Fin D, x (ix2 r k) * w (ix2 k c))
    (∑ k : Fin D, w (ix2 k c) * w (ix2 k c))

/-- The whole result array: entry (r, c) at the index with coordinates (r, c). -/
def result (x : (⟨2, ![2048, 1024]⟩ : Shape).Idx → EReal) (w : (⟨2, ![1024, 4096]⟩ : Shape).Idx → EReal) :
    (⟨2, ![2048, 4096]⟩ : Shape).Idx → EReal :=
  fun i => entry x w (i 0) (i 1)

theorem result_ix2 (x : (⟨2, ![2048, 1024]⟩ : Shape).Idx → EReal) (w : (⟨2, ![1024, 4096]⟩ : Shape).Idx → EReal)
    (r : Fin 2048) (c : Fin 4096) : result x w (ix2 r c) = entry x w r c := rfl

/-- An entry depends on x only through row r and on w only through column c: two pairs of arrays that agree there
    have the same entry. This is how a block's entry is recognised as the whole array's. -/
theorem entry_congr {B D O B' O' : Nat} (x : (⟨2, ![B, D]⟩ : Shape).Idx → EReal) (w : (⟨2, ![D, O]⟩ : Shape).Idx → EReal)
    (x' : (⟨2, ![B', D]⟩ : Shape).Idx → EReal) (w' : (⟨2, ![D, O']⟩ : Shape).Idx → EReal)
    (r : Fin B) (c : Fin O) (r' : Fin B') (c' : Fin O')
    (hx : ∀ k : Fin D, x (ix2 r k) = x' (ix2 r' k)) (hw : ∀ k : Fin D, w (ix2 k c) = w' (ix2 k c')) :
    entry x w r c = entry x' w' r' c' := by
  unfold entry
  simp only [hx, hw]

end Cert.SqDist

end
-- ==== Proof.LibKeepdimsSum.lean ====
/-
  Sums of squares kept as a column or as a row and spread back over a block, read at one entry.

  A row-wise sum of an [a, b] block that keeps its axis leaves an [a, 1] column, and broadcasting that column over b
  columns gives every entry of row p the row's sum; a column-wise sum leaves a [1, b] row, and broadcasting it over a
  rows gives every entry of column q the column's sum. At the ideal values a sum over one axis with the zero
  accumulator is the plain finite sum over that axis's coordinate. The first two facts are about the layout alone
  (any element type); the last two read the whole chain "square, sum over an axis, keep the axis, broadcast" at an
  entry (p, q).
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibKeepdimsSum

open Idealize.ShloMosaic Idealize.ShloMosaic.ValueIdx

variable {α : Type}

/-- An [a] array cast to a column [a, 1] reads, at (i, u), the operand at i, whatever the unit coordinate u. -/
theorem castColumn_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b columns reads, at (p, c), the column at row p. -/
theorem columnBroadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Squares summed along each row, kept as a column and broadcast back: entry (p, q) is the sum over the row's
    coordinate k of x(p, k) · x(p, k). -/
theorem rowSquares_apply {a b : ℕ} (x : FVec Ideal ⟨2, ![a, b]⟩ .f32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ (mulf x x) 0x00000000#32 hr hφ hacc) hc) hb
        (ix2 p q)
      = ∑ k : Fin b, x (ix2 p k) * x (ix2 p k) := by
  refine (columnBroadcast_apply _ hb p q).trans ((castColumn_apply _ hc p 0).trans ?_)
  refine (Ideal.multiReduction_add_single (mulf x x) _ hr hφ hacc (ix1 p)).trans ?_
  refine Finset.sum_congr rfl fun k _ => ?_
  have e : hr.lift (ix1 p) k = ix2 p k := by
    funext ax; apply Fin.ext
    match ax with
    | ⟨0, _⟩ => rfl
    | ⟨1, _⟩ => rfl
  rw [e]; rfl

/-- Squares summed along each column, kept as a row and broadcast back over a rows: entry (p, q) is the sum over
    the column's coordinate k of w(k, q) · w(k, q). -/
theorem colSquares_apply {d a b : ℕ} (w : FVec Ideal ⟨2, ![d, b]⟩ .f32)
    (hr : (⟨2, ![d, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .add [0] ⟨1, ![b]⟩ (mulf w w) 0x00000000#32 hr hφ hacc) hc) hb
        (ix2 p q)
      = ∑ k : Fin d, w (ix2 k q) * w (ix2 k q) := by
  refine (broadcastTo_1b_ab_apply _ hb p q).trans ((shapeCast_a_1a_apply _ hc 0 q).trans ?_)
  refine (Ideal.multiReduction_add_single (mulf w w) _ hr hφ hacc (ix1 q)).trans ?_
  refine Finset.sum_congr rfl fun k _ => ?_
  have e : hr.lift (ix1 q) k = ix2 k q := by
    funext ax; apply Fin.ext
    match ax with
    | ⟨0, _⟩ => rfl
    | ⟨1, _⟩ => rfl
  rw [e]; rfl

end Cert.LibKeepdimsSum

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.NarrowedProduct.lean ====
/-
  A product of two blocks whose operands were first narrowed to a shorter float format, read at one entry. At the
  ideal values narrowing a float is the identity and the product into the zero accumulator is exact, so entry (p, q)
  is the plain inner product of row p of the first block with column q of the second.
-/
import Idealize.ShloMosaic.PureOps.Ideal.Laws
import Idealize.ShloMosaic.Lib.ValueIdx
import proofs.«109847_j60078002536974_1_alg».proof.Proof.LibMatmulPlain

noncomputable section

open scoped BigOperators

namespace Cert.SqDist

open Idealize.ShloMosaic Idealize.ShloMosaic.ValueIdx

/-- The product of an m×k block by a k×n block into the zero accumulator, both operands first narrowed to a
    shorter float format, for dimension numbers that are the plain ones: entry (p, q) is the inner product of row p
    of the first block with column q of the second. -/
theorem narrowedProduct_apply {m k n : ℕ} {ψ : FTy} (D : DotDims ⟨2, ![m, k]⟩ ⟨2, ![k, n]⟩ ⟨2, ![m, n]⟩)
    (hD : D = DotDims.plain m k n) (prec : Option ContractPrecision)
    (x : FVec Ideal ⟨2, ![m, k]⟩ .f32) (w : FVec Ideal ⟨2, ![k, n]⟩ .f32) (hψ : ψ.bits < FTy.bits .f32)
    (p : Fin m) (q : Fin n) :
    matmul D prec (truncf ψ x hψ) (truncf ψ w hψ) (constant ⟨2, ![m, n]⟩ .f32 0x00000000#32) (ix2 p q)
      = ∑ c : Fin k, x (ix2 p c) * w (ix2 c q) := by
  subst hD
  exact Cert.LibMatmulPlain.matmul_plain_zero_apply prec (truncf ψ x hψ) (truncf ψ w hψ) p q

end Cert.SqDist

end
-- ==== Proof.BlockPayload.lean ====
/-
  What one grid point computes, entry by entry.

  A grid point holds a block of 512 rows of x (all 1024 columns) and a block of 1024 columns of W (all 1024 rows). Its
  result block's entry (p, q) combines, in the specification's order and with the same two float words, the sum of the
  squares of row p of the x block, the inner product of that row with column q of the W block (the operands narrowed to a
  shorter format first, which at the ideal values changes nothing), and the sum of the squares of column q of the W block:
  it is the specification's entry formula on the two blocks.
-/
import proofs.«109847_j60078002536974_1_alg».proof.Proof.Gen.KernelIdeal.Skeleton
import proofs.«109847_j60078002536974_1_alg».proof.Proof.SqDistSpec
import proofs.«109847_j60078002536974_1_alg».proof.Proof.LibKeepdimsSum
import proofs.«109847_j60078002536974_1_alg».proof.Proof.NarrowedProduct

noncomputable section

open scoped BigOperators

namespace Cert.SqDist.Block

open Cert.KernelIdeal Cert.KernelIdeal.Gen Idealize.ShloMosaic Idealize.ShloMosaic.ValueIdx

/-- The printed dimension numbers of the block product are the plain ones: rows by the shared axis times the shared
    axis by columns, nothing batched. -/
theorem dims_plain : dot_S512x1024_S1024x1024_S512x1024_1_0_0_1_n_n = DotDims.plain 512 1024 1024 := rfl

/-- Entry (p, q) of the block a grid point stores is the entry formula on its two input blocks. -/
theorem payload_apply (x0 : FVec Ideal S512x1024 .f32) (x1 : FVec Ideal S1024x1024 .f32) (p : Fin 512) (q : Fin 1024) :
    k0_pay1 (F := Ideal) x0 x1 (ix2 p q) = SqDist.entry x0 x1 p q := by
  unfold k0_pay1 SqDist.entry SqDist.combine
  simp only [mulf_apply, addf_apply, subf_apply, broadcast_apply]
  refine congrArg₂ (· * ·) rfl (congrArg₂ (· + ·) (congrArg₂ (· - ·) ?_ (congrArg₂ (· * ·) rfl ?_)) ?_)
  · exact Cert.LibKeepdimsSum.rowSquares_apply x0 _ _ _ _ _ p q
  · exact SqDist.narrowedProduct_apply _ dims_plain none x0 x1 _ p q
  · exact Cert.LibKeepdimsSum.colSquares_apply x1 _ _ _ _ _ p q

end Cert.SqDist.Block

end
-- ==== Proof.KernelValue.lean ====
/-
  The kernel's result array is the function of the specification.

  The grid has 4 × 4 points. Point (i, j) reads rows 512·i … 512·i + 511 of x (all columns), columns 1024·j … 1024·j + 1023
  of W (all rows), and writes the block of the result with those rows and columns. Entry (p, q) of what it writes is the
  entry formula on its two input blocks; row p of the x block is row 512·i + p of x and column q of the W block is column
  1024·j + q of W, and the formula reads nothing else, so the entry is the specification's entry at (512·i + p, 1024·j + q):
  every point writes its own block of ONE whole-array function. The sixteen blocks cover the result (row r, column c lies in
  the block of point (r / 512, c / 1024)), so after the run the array is that function.
-/
import proofs.«109847_j60078002536974_1_alg».proof.Proof.Gen.KernelIdeal.Value
import proofs.«109847_j60078002536974_1_alg».proof.Proof.BlockPayload

set_option maxRecDepth 16384

noncomputable section

open scoped BigOperators

namespace Cert.SqDist.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two argument arrays as the region finds them, and a point's two input blocks, at their literal types. -/
abbrev xarr (c : Dev nD) : FVec Ideal S2048x1024 .f32 := V m c main_arg0
abbrev warr (c : Dev nD) : FVec Ideal S1024x4096 .f32 := V m c main_arg1
abbrev xblk (c : Dev nD) (t : Fin cfg0.N) : FVec Ideal S512x1024 .f32 := iblk m c 0 t
abbrev wblk (c : Dev nD) (t : Fin cfg0.N) : FVec Ideal S1024x1024 .f32 := iblk m c 1 t

theorem origin_eq : (![0, 0] : Fin 2 → Nat) = fun _ => 0 := funext fun a => by fin_cases a <;> rfl

/-- The printed index maps, decided over the sixteen points: the x block moves with the result block along the rows and
    stays at column block 0; the W block stays at row block 0 and moves with the result block along the columns. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every one of the 4 × 4 result blocks is some point's. -/
theorem index_onto : ∀ (b0 : Fin 4) (b1 : Fin 4), ∃ t : Fin cfg0.N, win0_2.index t = ![b0.val, b1.val] :=
  (by decide +kernel : ∀ (b0 : Fin 4) (b1 : Fin 4), ∃ t : Fin grid0.N, win0_2.index t = ![b0.val, b1.val])

/-- Row p of a point's x block is the row of x that the point's result block has at p. -/
theorem xblk_row (c : Dev nD) (t : Fin cfg0.N) (p : Fin 512) (q : Fin 1024) (k : Fin 1024) :
    xblk m c t (ix2 p k) = xarr m c (ix2 ((((cfg0.win 2).blk t).view.emb (ix2 p q)) 0) k) := by
  obtain ⟨e0, e1, -, -⟩ := index_facts t
  show V m c main_arg0 (((cfg0.win 0).blk t).view.emb (ix2 p k)) = V m c main_arg0 _
  refine congrArg (V m c main_arg0) (funext fun a => Fin.ext ?_)
  match a with
  | ⟨0, _⟩ =>
    show win0_0.index t (0 : Fin 2) * 512 + 1 * p.val = win0_2.index t (0 : Fin 2) * 512 + 1 * p.val
    rw [e0]
  | ⟨1, _⟩ =>
    show win0_0.index t (1 : Fin 2) * 1024 + 1 * k.val = k.val
    rw [e1]; omega

/-- Column q of a point's W block is the column of W that the point's result block has at q. -/
theorem wblk_col (c : Dev nD) (t : Fin cfg0.N) (p : Fin 512) (q : Fin 1024) (k : Fin 1024) :
    wblk m c t (ix2 k q) = warr m c (ix2 k ((((cfg0.win 2).blk t).view.emb (ix2 p q)) 1)) := by
  obtain ⟨-, -, e2, e3⟩ := index_facts t
  show V m c main_arg1 (((cfg0.win 1).blk t).view.emb (ix2 k q)) = V m c main_arg1 _
  refine congrArg (V m c main_arg1) (funext fun a => Fin.ext ?_)
  match a with
  | ⟨0, _⟩ =>
    show win0_1.index t (0 : Fin 2) * 1024 + 1 * k.val = k.val
    rw [e2]; omega
  | ⟨1, _⟩ =>
    show win0_1.index t (1 : Fin 2) * 1024 + 1 * q.val = win0_2.index t (1 : Fin 2) * 1024 + 1 * q.val
    rw [e3]

/-- Entry (p, q) of what point t stores is the specification's entry at the array index under (p, q). -/
theorem block_entry (c : Dev nD) (t : Fin cfg0.N) (p : Fin 512) (q : Fin 1024) :
    k0_pay1 (F := Ideal) (xblk m c t) (wblk m c t) (ix2 p q)
      = SqDist.result (xarr m c) (warr m c) (((cfg0.win 2).blk t).view.emb (ix2 p q)) :=
  (Block.payload_apply (xblk m c t) (wblk m c t) p q).trans
    (SqDist.entry_congr (B := 512) (D := 1024) (O := 1024) (B' := 2048) (O' := 4096) (xblk m c t) (wblk m c t) (xarr m c) (warr m c)
      p q _ _ (xblk_row m c t p q) (wblk_col m c t p q))

/-- WHAT POINT t WRITES BACK is its block of the specification's result of the argument arrays. -/
theorem flushed_eq (c : Dev nD) (t : Fin cfg0.N) :
    (dats m 0 c).flushed 2 t = ((cfg0.win 2).blk t).view.read (Elt Ideal) (SqDist.result (xarr m c) (warr m c)) := by
  rw [Cert.KernelIdeal.Value.flushed2]
  unfold out0_2
  rw [View.canon_unit_zero origin_eq]
  simp only [View.ld_unit_zero (S := S512x1024) origin_eq, View.ld_unit_zero (S := S1024x1024) origin_eq]
  funext j
  obtain ⟨p, q, rfl⟩ : ∃ (p : Fin 512) (q : Fin 1024), j = ix2 p q := ⟨j 0, j 1, eq_ix2 (n0 := 512) (n1 := 1024) j⟩
  exact block_entry m c t p q

/-- An index of the result is in point t's block iff each coordinate is in the block's range on its axis. -/
theorem mem_block (t : Fin cfg0.N) (i : S2048x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every index of the result is in some point's block: row r, column c in the block of point (r / 512, c / 1024). -/
theorem covered (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  obtain ⟨t, ht⟩ := index_onto ⟨(i 0).val / 512, by omega⟩ ⟨(i 1).val / 1024, by omega⟩
  have b0 : win0_2.index t (0 : Fin 2) = (i 0).val / 512 := congrFun ht 0
  have b1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- THE RESULT ARRAY after the run is the specification's result of the argument arrays. -/
theorem final (c : Dev nD) :
    (dats m 0 c).arrAt 2 cfg0.N = SqDist.result (m ((c : Thread nD τ).loc main_arg0)) (m ((c : Thread nD τ).loc main_arg1)) :=
  (dats m 0 c).arrAt_eq_of_cover 2 (SqDist.result (xarr m c) (warr m c)) (fun t _ => flushed_eq m c t) covered

/-- The kernel's run: the result array ends at the specification's result of the argument arrays, the arguments unchanged. -/
theorem run : θ_run defs (onTc (τ := τ) (main (F := Ideal))) ⟨m, fun _ => 0, ρ⟩ fun r => ∀ c : Dev nD,
      r.2.mem ((c : Thread nD τ).loc main_v0) = SqDist.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.SqDist.KernelValue

end
-- ==== Proof.RefValue.lean ====
/-
  The reference computes the function of the specification.

  Read one operation at a time at an entry (r, c): the row sums of x·x and the column sums of W·W are kept with a unit
  axis and spread back over the result, so their entries at (r, c) are the host sums, each the zero initial value plus
  the finite sum over the shared coordinate; the matrix product's entry is the sum of x(r, k)·W(k, c); and the three
  are combined in the specification's order with the same two float words. The only arithmetic is 0 + s = s.
-/
import proofs.«109847_j60078002536974_1_alg».proof.Proof.Gen.ReferenceIdeal.Read
import proofs.«109847_j60078002536974_1_alg».proof.Proof.SqDistSpec

noncomputable section

open scoped BigOperators

namespace Cert.SqDist.RefValue

open Cert.ReferenceIdeal Cert.ReferenceIdeal.Gen Cert.ReferenceIdeal.Read Idealize.ShloMosaic Idealize.ShloMosaic.ValueIdx

/-- The reference's last stage, as a function of the two argument arrays, is the specification's result. -/
theorem reference_eq (x0 : (⟨S2048x1024, .f32⟩ : BufTy).Contents (Elt Ideal)) (x1 : (⟨S1024x4096, .f32⟩ : BufTy).Contents (Elt Ideal)) :
    val_main_v14 (F := Ideal) x0 x1 = SqDist.result x0 x1 := by
  funext i
  obtain ⟨r, c, rfl⟩ : ∃ (r : Fin 2048) (c : Fin 4096), i = ix2 r c := ⟨i 0, i 1, eq_ix2 i⟩
  rw [SqDist.result_ix2]
  -- where each operation reads its operands, in coordinates
  have e1 : ∀ k : Fin 1024, idx_main_v1 (idx_main_v2 (idx_main_v9 (ix2 r c))) k = ix2 r k := fun k =>
    funext fun a => Fin.ext (by match a with | ⟨0, _⟩ => rfl | ⟨1, _⟩ => rfl)
  have e4 : ∀ k : Fin 1024, idx_main_v4 (idx_main_v5 (idx_main_v11 (ix2 r c))) k = ix2 k c := fun k =>
    funext fun a => Fin.ext (by match a with | ⟨0, _⟩ => rfl | ⟨1, _⟩ => rfl)
  have el : ∀ k : Fin 1024, lidx_main_v6 (ix2 r c) k = ix2 r k := fun k =>
    funext fun a => Fin.ext (by match a with | ⟨0, _⟩ => rfl | ⟨1, _⟩ => rfl)
  have er : ∀ k : Fin 1024, ridx_main_v6 (ix2 r c) k = ix2 k c := fun k =>
    funext fun a => Fin.ext (by match a with | ⟨0, _⟩ => rfl | ⟨1, _⟩ => rfl)
  rw [val_main_v14_apply, val_main_v13_apply, val_main_cst_2_apply, val_main_v12_apply, val_main_v10_apply,
    val_main_v9_apply, val_main_v2_apply, val_main_v1_apply, val_main_v8_apply, val_main_v7_apply, val_main_cst_1_apply,
    val_main_v6_apply, val_main_v11_apply, val_main_v5_apply, val_main_v4_apply]
  simp only [val_main_v0_apply, val_main_v3_apply, val_main_cst_apply, val_main_cst_0_apply, e1, e4, el, er,
    Ideal.mulf_def, Ideal.addf_def, Ideal.subf_def, Ideal.ofBits_def, Ideal.ofBits_zero_f32, zero_add]
  rfl

end Cert.SqDist.RefValue

end
-- ==== Proof.lean ====
/- Minus half the squared distance between every row of x and every column of W, computed through its expansion.

   Both programs compute, at entry (r, c) of a 2048 × 4096 array,
       h · ( ( Σ_k x(r,k)² − t · Σ_k x(r,k)·W(k,c) ) + Σ_k W(k,c)² ),
   the sums over the shared axis of length 1024, with t and h the float words for 2 and −1/2 (Proof/SqDistSpec.lean).
   The reference does it with whole-array operations (Proof/RefValue.lean). The kernel cuts the result into 4 × 4 blocks
   of 512 rows by 1024 columns; a block needs only its own 512 rows of x and its own 1024 columns of W, each with the whole
   shared axis, so every sum is complete inside one grid point, and a point's entry is the same formula on its two blocks
   (Proof/BlockPayload.lean, over Proof/LibKeepdimsSum.lean, Proof/NarrowedProduct.lean and Proof/LibMatmulPlain.lean);
   the blocks cover the array, so the array after the run is the formula (Proof/KernelValue.lean). The kernel narrows the
   product's operands to a shorter float format first; on the extended reals that is the identity. The two programs write
   the three sums and their combination in the same order, so the two results are one function of the arguments and no
   law that could fail at an infinity is used: the finiteness of the inputs is never opened.
   The ideal pass rewrote nothing in the kernel, so there is nothing to preserve. -/
import proofs.«109847_j60078002536974_1_alg».proof.Defs
import proofs.«109847_j60078002536974_1_alg».proof.Proof.Gen.Kernel
import proofs.«109847_j60078002536974_1_alg».proof.Proof.Gen.Kernel.Skeleton
import proofs.«109847_j60078002536974_1_alg».proof.Proof.Gen.Kernel.Launch
import proofs.«109847_j60078002536974_1_alg».proof.Proof.Gen.Kernel.Points
import proofs.«109847_j60078002536974_1_alg».proof.Proof.Gen.Kernel.Frame
import proofs.«109847_j60078002536974_1_alg».proof.Proof.Gen.KernelIdeal
import proofs.«109847_j60078002536974_1_alg».proof.Proof.Gen.KernelIdeal.Skeleton
import proofs.«109847_j60078002536974_1_alg».proof.Proof.Gen.KernelIdeal.Launch
import proofs.«109847_j60078002536974_1_alg».proof.Proof.Gen.KernelIdeal.Points
import proofs.«109847_j60078002536974_1_alg».proof.Proof.Gen.KernelIdeal.Frame
import proofs.«109847_j60078002536974_1_alg».proof.Proof.Gen.ReferenceIdeal
import proofs.«109847_j60078002536974_1_alg».proof.Proof.Gen.Pre_finite_inputs
import proofs.«109847_j60078002536974_1_alg».proof.Proof.Gen.KernelIdeal.Value
import proofs.«109847_j60078002536974_1_alg».proof.Proof.Gen.ReferenceIdeal.Run
import proofs.«109847_j60078002536974_1_alg».proof.Proof.Gen.ReferenceIdeal.Read
import proofs.«109847_j60078002536974_1_alg».proof.Proof.KernelValue
import proofs.«109847_j60078002536974_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are the specification's result of the same
    argument arrays. -/
theorem algebraic : Cert.algebraic_KernelIdeal_ReferenceIdeal := by
  intro m ρ m' ρ' _ hagree
  refine ⟨fun c => Cert.SqDist.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.SqDist.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.SqDist.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
